-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x64x63 : Shape := ⟨4, ![32, 32, 64, 63]⟩
abbrev S_ : Shape := ⟨0, ![]⟩

class Facts : Prop where
  bcast_S_S32x32x64x63 : S_.BroadcastsInDim S32x32x64x63 (![] : Fin 0 → Fin S32x32x64x63.rank)
  reducesTo_S32x32x64x63_S_d0_1_2_3 : S32x32x64x63.ReducesTo [0, 1, 2, 3] S_
  h_S_ : 0 < S_.numel

variable [Facts]

def fn {F : FTy → Type} [FloatOps F] (main_arg0 : FVec F S32x32x64x63 .f32) : IVec S_ 1 :=
  let main_v0 : FVec F S32x32x64x63 .f32 := Host.absf main_arg0
  let main_cst : FVec F S_ .f32 := constant S_ .f32 0x7F800000#32
  let main_v1 : FVec F S32x32x64x63 .f32 := broadcastInDim S32x32x64x63 ![] bcast_S_S32x32x64x63 main_cst
  let main_v2 : IVec S32x32x64x63 1 := cmpf .olt main_v0 main_v1
  let main_c : IVec S_ 1 := constantI S_ 1 1#1
  let main_v3 : IVec S_ 1 := (fun x v => Host.reduce IntOp.andi x v reducesTo_S32x32x64x63_S_d0_1_2_3 h_S_) main_v2 main_c
  main_v3
-- ==== Kernel.lean ====
abbrev S32x32x64x63 : Shape := ⟨4, ![32, 32, 64, 63]⟩
abbrev S1x1 : Shape := ⟨2, ![1, 1]⟩
abbrev S32x8x64x63 : Shape := ⟨4, ![32, 8, 64, 63]⟩
abbrev S1x8x64x63 : Shape := ⟨4, ![1, 8, 64, 63]⟩
abbrev S8x64x63 : Shape := ⟨3, ![8, 64, 63]⟩
abbrev S32x8x64 : Shape := ⟨3, ![32, 8, 64]⟩
abbrev S32x8 : Shape := ⟨2, ![32, 8]⟩
abbrev S32 : Shape := ⟨1, ![32]⟩
abbrev S1x32 : Shape := ⟨2, ![1, 32]⟩
abbrev S1 : Shape := ⟨1, ![1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S32x32x64x63, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .local _ .vmem, ⟨0, _⟩ => ⟨S32x8x64x63, .f32⟩
  | .local _ .vmem, ⟨1, _⟩ => ⟨S32x8x64x63, .f32⟩
  | .local _ .vmem, ⟨2, _⟩ => ⟨S1x1, .f32⟩
  | .local _ .vmem, ⟨3, _⟩ => ⟨S1x1, .f32⟩
  | _, _ => ⟨S32x32x64x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_201 : BitVec 32 := 3#32
  let v746 : BitVec 1 := Scalar.cmpi .eq arg0 c3_i32_201
  let v747 : BitVec 32 := Scalar.extui v746
  let c0_i32_202 : BitVec 32 := 0#32
  let v748 : BitVec 1 := Scalar.cmpi .ne v747 c0_i32_202
  v748

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x64x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x8x64x63_S32x8x64x63_0_0_0_0 : ∀ a, (![0, 0, 0, 0] : Fin 4 → Nat) a + S32x8x64x63.size a ≤ S32x8x64x63.size a
  h_S32x8x64x63 : 0 < S32x8x64x63.numel
  slices_S32x8x64x63_o0_0_0_0_S1x8x64x63 : S32x8x64x63.Slices ![0, 0, 0, 0] S1x8x64x63
  shapeCasts_S1x8x64x63_S8x64x63 : S1x8x64x63.ShapeCasts S8x64x63
  shapeCasts_S8x64x63_S1x8x64x63 : S8x64x63.ShapeCasts S1x8x64x63
  broadcasts_S1x8x64x63_S32x8x64x63 : S1x8x64x63.Broadcasts S32x8x64x63
  reduces_S32x8x64x63_S32x8x64 : S32x8x64x63.Reduces [3] S32x8x64
  iota_S32x8x64_d0_w32 : S32x8x64.Iotas .tc 32 [0]
  reduces_S32x8x64_S32x8 : S32x8x64.Reduces [2] S32x8
  reduces_S32x8_S32 : S32x8.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  slices_S32x8x64x63_o1_0_0_0_S1x8x64x63 : S32x8x64x63.Slices ![1, 0, 0, 0] S1x8x64x63
  slices_S32x8x64x63_o2_0_0_0_S1x8x64x63 : S32x8x64x63.Slices ![2, 0, 0, 0] S1x8x64x63
  slices_S32x8x64x63_o3_0_0_0_S1x8x64x63 : S32x8x64x63.Slices ![3, 0, 0, 0] S1x8x64x63
  slices_S32x8x64x63_o4_0_0_0_S1x8x64x63 : S32x8x64x63.Slices ![4, 0, 0, 0] S1x8x64x63
  slices_S32x8x64x63_o5_0_0_0_S1x8x64x63 : S32x8x64x63.Slices ![5, 0, 0, 0] S1x8x64x63
  slices_S32x8x64x63_o6_0_0_0_S1x8x64x63 : S32x8x64x63.Slices ![6, 0, 0, 0] S1x8x64x63
  slices_S32x8x64x63_o7_0_0_0_S1x8x64x63 : S32x8x64x63.Slices ![7, 0, 0, 0] S1x8x64x63
  slices_S32x8x64x63_o8_0_0_0_S1x8x64x63 : S32x8x64x63.Slices ![8, 0, 0, 0] S1x8x64x63
  slices_S32x8x64x63_o9_0_0_0_S1x8x64x63 : S32x8x64x63.Slices ![9, 0, 0, 0] S1x8x64x63
  slices_S32x8x64x63_o10_0_0_0_S1x8x64x63 : S32x8x64x63.Slices ![10, 0, 0, 0] S1x8x64x63
  slices_S32x8x64x63_o11_0_0_0_S1x8x64x63 : S32x8x64x63.Slices ![11, 0, 0, 0] S1x8x64x63
  slices_S32x8x64x63_o12_0_0_0_S1x8x64x63 : S32x8x64x63.Slices ![12, 0, 0, 0] S1x8x64x63
  slices_S32x8x64x63_o13_0_0_0_S1x8x64x63 : S32x8x64x63.Slices ![13, 0, 0, 0] S1x8x64x63
  slices_S32x8x64x63_o14_0_0_0_S1x8x64x63 : S32x8x64x63.Slices ![14, 0, 0, 0] S1x8x64x63
  slices_S32x8x64x63_o15_0_0_0_S1x8x64x63 : S32x8x64x63.Slices ![15, 0, 0, 0] S1x8x64x63
  slices_S32x8x64x63_o16_0_0_0_S1x8x64x63 : S32x8x64x63.Slices ![16, 0, 0, 0] S1x8x64x63
  slices_S32x8x64x63_o17_0_0_0_S1x8x64x63 : S32x8x64x63.Slices ![17, 0, 0, 0] S1x8x64x63
  slices_S32x8x64x63_o18_0_0_0_S1x8x64x63 : S32x8x64x63.Slices ![18, 0, 0, 0] S1x8x64x63
  slices_S32x8x64x63_o19_0_0_0_S1x8x64x63 : S32x8x64x63.Slices ![19, 0, 0, 0] S1x8x64x63
  slices_S32x8x64x63_o20_0_0_0_S1x8x64x63 : S32x8x64x63.Slices ![20, 0, 0, 0] S1x8x64x63
  slices_S32x8x64x63_o21_0_0_0_S1x8x64x63 : S32x8x64x63.Slices ![21, 0, 0, 0] S1x8x64x63
  slices_S32x8x64x63_o22_0_0_0_S1x8x64x63 : S32x8x64x63.Slices ![22, 0, 0, 0] S1x8x64x63
  slices_S32x8x64x63_o23_0_0_0_S1x8x64x63 : S32x8x64x63.Slices ![23, 0, 0, 0] S1x8x64x63
  slices_S32x8x64x63_o24_0_0_0_S1x8x64x63 : S32x8x64x63.Slices ![24, 0, 0, 0] S1x8x64x63
  slices_S32x8x64x63_o25_0_0_0_S1x8x64x63 : S32x8x64x63.Slices ![25, 0, 0, 0] S1x8x64x63
  slices_S32x8x64x63_o26_0_0_0_S1x8x64x63 : S32x8x64x63.Slices ![26, 0, 0, 0] S1x8x64x63
  slices_S32x8x64x63_o27_0_0_0_S1x8x64x63 : S32x8x64x63.Slices ![27, 0, 0, 0] S1x8x64x63
  slices_S32x8x64x63_o28_0_0_0_S1x8x64x63 : S32x8x64x63.Slices ![28, 0, 0, 0] S1x8x64x63
  slices_S32x8x64x63_o29_0_0_0_S1x8x64x63 : S32x8x64x63.Slices ![29, 0, 0, 0] S1x8x64x63
  slices_S32x8x64x63_o30_0_0_0_S1x8x64x63 : S32x8x64x63.Slices ![30, 0, 0, 0] S1x8x64x63
  slices_S32x8x64x63_o31_0_0_0_S1x8x64x63 : S32x8x64x63.Slices ![31, 0, 0, 0] S1x8x64x63
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x64x63.size a ≤ S32x32x64x63.size a
  hwx0_0 : ∀ i : grid0.Coords, EltTy.bits .f32 = 32 ∨ (Rect.block (s := S32x32x64x63) S32x8x64x63.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S32x8x64x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x32x64x63 : Shape := ⟨4, ![32, 32, 64, 63]⟩
abbrev S32x64x32x63 : Shape := ⟨4, ![32, 64, 32, 63]⟩
abbrev S2048x32x63 : Shape := ⟨3, ![2048, 32, 63]⟩
abbrev S2048x32x1x63 : Shape := ⟨4, ![2048, 32, 1, 63]⟩
abbrev S2048x1x32x63 : Shape := ⟨4, ![2048, 1, 32, 63]⟩
abbrev S2048x32x32x63 : Shape := ⟨4, ![2048, 32, 32, 63]⟩
abbrev S_ : Shape := ⟨0, ![]⟩
abbrev S2048x32x32 : Shape := ⟨3, ![2048, 32, 32]⟩
abbrev S32x32 : Shape := ⟨2, ![32, 32]⟩
abbrev S1x32x32 : Shape := ⟨3, ![1, 32, 32]⟩

abbrev nBuf : Space → Nat
  | .hbm => 34
  | .vmem => 0
  | .smem => 0
  | _ => 0

abbrev bufTy : (tb : Table) → Fin (tcTables nBuf tb) → BufTy
  | .hbm, ⟨0, _⟩ => ⟨S32x32x64x63, .f32⟩
  | .hbm, ⟨1, _⟩ => ⟨S32x64x32x63, .f32⟩
  | .hbm, ⟨2, _⟩ => ⟨S2048x32x63, .f32⟩
  | .hbm, ⟨3, _⟩ => ⟨S2048x32x1x63, .f32⟩
  | .hbm, ⟨4, _⟩ => ⟨S2048x1x32x63, .f32⟩
  | .hbm, ⟨5, _⟩ => ⟨S2048x32x32x63, .f32⟩
  | .hbm, ⟨6, _⟩ => ⟨S2048x32x32x63, .f32⟩
  | .hbm, ⟨7, _⟩ => ⟨S2048x32x32x63, .f32⟩
  | .hbm, ⟨8, _⟩ => ⟨S2048x32x32x63, .f32⟩
  | .hbm, ⟨9, _⟩ => ⟨S_, .f32⟩
  | .hbm, ⟨10, _⟩ => ⟨S2048x32x32, .f32⟩
  | .hbm, ⟨11, _⟩ => ⟨S_, .i1⟩
  | .hbm, ⟨12, _⟩ => ⟨S32x32, .i1⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S_, .i1⟩
  | .hbm, ⟨20, _⟩ => ⟨S32x32, .i1⟩
  | .hbm, ⟨21, _⟩ => ⟨S32x32, .i1⟩
  | .hbm, ⟨22, _⟩ => ⟨S1x32x32, .i1⟩
  | .hbm, ⟨23, _⟩ => ⟨S2048x32x32, .f32⟩
  | .hbm, ⟨24, _⟩ => ⟨S2048x32x32, .f32⟩
  | .hbm, ⟨25, _⟩ => ⟨S_, .f32⟩
  | .hbm, ⟨26, _⟩ => ⟨S_, .f32⟩
  | .hbm, ⟨27, _⟩ => ⟨S2048x32x32, .i1⟩
  | .hbm, ⟨28, _⟩ => ⟨S2048x32x32, .f32⟩
  | .hbm, ⟨29, _⟩ => ⟨S2048x32x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32x32x64x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  transposes_S32x32x64x63_S32x64x32x63_1_2_0_3 : S32x32x64x63.Transposes [1, 2, 0, 3] S32x64x32x63
  shapeCasts_S32x64x32x63_S2048x32x63 : S32x64x32x63.ShapeCasts S2048x32x63
  bcast_S2048x32x63_S2048x32x1x63_0_1_3 : S2048x32x63.BroadcastsInDim S2048x32x1x63 (![0, 1, 3] : Fin 3 → Fin S2048x32x1x63.rank)
  bcast_S2048x32x63_S2048x1x32x63_0_2_3 : S2048x32x63.BroadcastsInDim S2048x1x32x63 (![0, 2, 3] : Fin 3 → Fin S2048x1x32x63.rank)
  bcast_S2048x32x1x63_S2048x32x32x63_0_1_2_3 : S2048x32x1x63.BroadcastsInDim S2048x32x32x63 (![0, 1, 2, 3] : Fin 4 → Fin S2048x32x32x63.rank)
  bcast_S2048x1x32x63_S2048x32x32x63_0_1_2_3 : S2048x1x32x63.BroadcastsInDim S2048x32x32x63 (![0, 1, 2, 3] : Fin 4 → Fin S2048x32x32x63.rank)
  reducesTo_S2048x32x32x63_S2048x32x32_d3 : S2048x32x32x63.ReducesTo [3] S2048x32x32
  h_S_ : 0 < S_.numel
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2048x32x32_0_1_2 : S1x32x32.BroadcastsInDim S2048x32x32 (![0, 1, 2] : Fin 3 → Fin S2048x32x32.rank)
  bcast_S_S2048x32x32 : S_.BroadcastsInDim S2048x32x32 (![] : Fin 0 → Fin S2048x32x32.rank)
  reducesTo_S2048x32x32_S_d0_1_2 : S2048x32x32.ReducesTo [0, 1, 2] S_

variable [Facts₀]

class Facts : Prop extends Facts₀ where

variable [Facts]
-- ==== Proof.KernelPieces.lean ====
/-
  The kernel's body read as values.

  At a grid point the body loads the point's block x : [32, 8, 64, 63] (hypothesis, batch row of the block, frame,
  feature).  For each hypothesis k1 = 0, …, 31 in turn it forms e[k2, b, t] = exp(0 − Σ_f |x[k2,b,t,f] − x[k1,b,t,f]|),
  keeps it where k2 > k1 and puts zero elsewhere, and sums what it kept over t, then over b, then over k2
  (`contrib`).  The 32 contributions are added one after the other to a [1,1] partial that starts at zero
  (`partial32`), and the partial is added to the [1,1] accumulator the kernel carries from point to point in its
  scratch (`newAcc`).  At the first point the accumulator is reset to zero before that; at the last point its
  new contents are copied to the output block.

  The printed body is cut into consecutive stretches, so a stretch ends in the middle of an odd hypothesis: the mask
  and the exponentials of hypothesis 2j − 1 are handed to the next stretch, which finishes that hypothesis and does
  hypothesis 2j whole.  The step lemmas below say that of each stretch's payload; they hold by unfolding.
-/
import proofs.«175501_j2963527434409_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- The f32 zero. -/
abbrev zf : F .f32 := Scalar.ofBits .f32 0x00000000#32

/-- exp(0 − L1 distance to the hypothesis sliced out at `off`), for every (k2, b, t) of the block. -/
def expOf (off : Fin 4 → Nat) (hs : S32x8x64x63.Slices off S1x8x64x63) (x : Vec F S32x8x64x63 .f32) : FVec F S32x8x64 .f32 :=
  exp (subf (broadcast S32x8x64 zf)
    (multiReduction .add [3] S32x8x64
      (absf (subf x (broadcastTo S32x8x64x63
        (shapeCast S1x8x64x63 (shapeCast S8x64x63 (extractStridedSlice S1x8x64x63 off x hs) shapeCasts_S1x8x64x63_S8x64x63)
          shapeCasts_S8x64x63_S1x8x64x63) broadcasts_S1x8x64x63_S32x8x64x63)))
      0x00000000#32 reduces_S32x8x64x63_S32x8x64 (.inl rfl) rfl))

/-- The mask "hypothesis coordinate k2 is greater than the word `c`" (a signed compare with the iota along axis 0). -/
def maskOf (c : BitVec 32) : IVec S32x8x64 1 :=
  cmpi .sgt (iota .tc S32x8x64 32 [0] iota_S32x8x64_d0_w32) (broadcast S32x8x64 c)

/-- What is kept under the mask, summed over t, then b, then k2, as a [1,1] vector. -/
def keptSum (mk : IVec S32x8x64 1) (ev : FVec F S32x8x64 .f32) : FVec F S1x1 .f32 :=
  broadcast S1x1 (extractAt ![0, 0]
    (shapeCast S1x1
      (multiReduction .add [1] S1
        (shapeCast S1x32
          (multiReduction .add [1] S32
            (multiReduction .add [2] S32x8 (select mk ev (broadcast S32x8x64 zf)) 0x00000000#32 reduces_S32x8x64_S32x8 (.inl rfl) rfl)
            0x00000000#32 reduces_S32x8_S32 (.inl rfl) rfl)
          shapeCasts_S32_S1x32)
        0x00000000#32 reduces_S1x32_S1 (.inl rfl) rfl)
      shapeCasts_S1_S1x1)
    inpos_S1x1_p0_0)

/-- One hypothesis' contribution. -/
def contrib (c : BitVec 32) (off : Fin 4 → Nat) (hs : S32x8x64x63.Slices off S1x8x64x63) (x : Vec F S32x8x64x63 .f32) : FVec F S1x1 .f32 :=
  keptSum (maskOf c) (expOf off hs x)

/-! ## The stretches' payloads -/

theorem pay3_eq (x : Vec F S32x8x64x63 .f32) :
    k0_pay3 x = addf (broadcast S1x1 zf) (contrib 0#32 ![0, 0, 0, 0] slices_S32x8x64x63_o0_0_0_0_S1x8x64x63 x) := rfl

theorem pay6_eq (x : Vec F S32x8x64x63 .f32) (v : FVec F S1x1 .f32) :
    k0_pay6 x v k0_pay4 (k0_pay5 x) = addf (addf v (contrib 1#32 ![1, 0, 0, 0] slices_S32x8x64x63_o1_0_0_0_S1x8x64x63 x))
      (contrib 2#32 ![2, 0, 0, 0] slices_S32x8x64x63_o2_0_0_0_S1x8x64x63 x) := rfl
theorem pay9_eq (x : Vec F S32x8x64x63 .f32) (v : FVec F S1x1 .f32) :
    k0_pay9 x v k0_pay7 (k0_pay8 x) = addf (addf v (contrib 3#32 ![3, 0, 0, 0] slices_S32x8x64x63_o3_0_0_0_S1x8x64x63 x))
      (contrib 4#32 ![4, 0, 0, 0] slices_S32x8x64x63_o4_0_0_0_S1x8x64x63 x) := rfl
theorem pay12_eq (x : Vec F S32x8x64x63 .f32) (v : FVec F S1x1 .f32) :
    k0_pay12 x v k0_pay10 (k0_pay11 x) = addf (addf v (contrib 5#32 ![5, 0, 0, 0] slices_S32x8x64x63_o5_0_0_0_S1x8x64x63 x))
      (contrib 6#32 ![6, 0, 0, 0] slices_S32x8x64x63_o6_0_0_0_S1x8x64x63 x) := rfl
theorem pay15_eq (x : Vec F S32x8x64x63 .f32) (v : FVec F S1x1 .f32) :
    k0_pay15 x v k0_pay13 (k0_pay14 x) = addf (addf v (contrib 7#32 ![7, 0, 0, 0] slices_S32x8x64x63_o7_0_0_0_S1x8x64x63 x))
      (contrib 8#32 ![8, 0, 0, 0] slices_S32x8x64x63_o8_0_0_0_S1x8x64x63 x) := rfl
theorem pay18_eq (x : Vec F S32x8x64x63 .f32) (v : FVec F S1x1 .f32) :
    k0_pay18 x v k0_pay16 (k0_pay17 x) = addf (addf v (contrib 9#32 ![9, 0, 0, 0] slices_S32x8x64x63_o9_0_0_0_S1x8x64x63 x))
      (contrib 10#32 ![10, 0, 0, 0] slices_S32x8x64x63_o10_0_0_0_S1x8x64x63 x) := rfl
theorem pay21_eq (x : Vec F S32x8x64x63 .f32) (v : FVec F S1x1 .f32) :
    k0_pay21 x v k0_pay19 (k0_pay20 x) = addf (addf v (contrib 11#32 ![11, 0, 0, 0] slices_S32x8x64x63_o11_0_0_0_S1x8x64x63 x))
      (contrib 12#32 ![12, 0, 0, 0] slices_S32x8x64x63_o12_0_0_0_S1x8x64x63 x) := rfl
theorem pay24_eq (x : Vec F S32x8x64x63 .f32) (v : FVec F S1x1 .f32) :
    k0_pay24 x v k0_pay22 (k0_pay23 x) = addf (addf v (contrib 13#32 ![13, 0, 0, 0] slices_S32x8x64x63_o13_0_0_0_S1x8x64x63 x))
      (contrib 14#32 ![14, 0, 0, 0] slices_S32x8x64x63_o14_0_0_0_S1x8x64x63 x) := rfl
theorem pay27_eq (x : Vec F S32x8x64x63 .f32) (v : FVec F S1x1 .f32) :
    k0_pay27 x v k0_pay25 (k0_pay26 x) = addf (addf v (contrib 15#32 ![15, 0, 0, 0] slices_S32x8x64x63_o15_0_0_0_S1x8x64x63 x))
      (contrib 16#32 ![16, 0, 0, 0] slices_S32x8x64x63_o16_0_0_0_S1x8x64x63 x) := rfl
theorem pay30_eq (x : Vec F S32x8x64x63 .f32) (v : FVec F S1x1 .f32) :
    k0_pay30 x v k0_pay28 (k0_pay29 x) = addf (addf v (contrib 17#32 ![17, 0, 0, 0] slices_S32x8x64x63_o17_0_0_0_S1x8x64x63 x))
      (contrib 18#32 ![18, 0, 0, 0] slices_S32x8x64x63_o18_0_0_0_S1x8x64x63 x) := rfl
theorem pay33_eq (x : Vec F S32x8x64x63 .f32) (v : FVec F S1x1 .f32) :
    k0_pay33 x v k0_pay31 (k0_pay32 x) = addf (addf v (contrib 19#32 ![19, 0, 0, 0] slices_S32x8x64x63_o19_0_0_0_S1x8x64x63 x))
      (contrib 20#32 ![20, 0, 0, 0] slices_S32x8x64x63_o20_0_0_0_S1x8x64x63 x) := rfl
theorem pay36_eq (x : Vec F S32x8x64x63 .f32) (v : FVec F S1x1 .f32) :
    k0_pay36 x v k0_pay34 (k0_pay35 x) = addf (addf v (contrib 21#32 ![21, 0, 0, 0] slices_S32x8x64x63_o21_0_0_0_S1x8x64x63 x))
      (contrib 22#32 ![22, 0, 0, 0] slices_S32x8x64x63_o22_0_0_0_S1x8x64x63 x) := rfl
theorem pay39_eq (x : Vec F S32x8x64x63 .f32) (v : FVec F S1x1 .f32) :
    k0_pay39 x v k0_pay37 (k0_pay38 x) = addf (addf v (contrib 23#32 ![23, 0, 0, 0] slices_S32x8x64x63_o23_0_0_0_S1x8x64x63 x))
      (contrib 24#32 ![24, 0, 0, 0] slices_S32x8x64x63_o24_0_0_0_S1x8x64x63 x) := rfl
theorem pay42_eq (x : Vec F S32x8x64x63 .f32) (v : FVec F S1x1 .f32) :
    k0_pay42 x v k0_pay40 (k0_pay41 x) = addf (addf v (contrib 25#32 ![25, 0, 0, 0] slices_S32x8x64x63_o25_0_0_0_S1x8x64x63 x))
      (contrib 26#32 ![26, 0, 0, 0] slices_S32x8x64x63_o26_0_0_0_S1x8x64x63 x) := rfl
theorem pay45_eq (x : Vec F S32x8x64x63 .f32) (v : FVec F S1x1 .f32) :
    k0_pay45 x v k0_pay43 (k0_pay44 x) = addf (addf v (contrib 27#32 ![27, 0, 0, 0] slices_S32x8x64x63_o27_0_0_0_S1x8x64x63 x))
      (contrib 28#32 ![28, 0, 0, 0] slices_S32x8x64x63_o28_0_0_0_S1x8x64x63 x) := rfl
theorem pay48_eq (x : Vec F S32x8x64x63 .f32) (v : FVec F S1x1 .f32) :
    k0_pay48 x v k0_pay46 (k0_pay47 x) = addf (addf v (contrib 29#32 ![29, 0, 0, 0] slices_S32x8x64x63_o29_0_0_0_S1x8x64x63 x))
      (contrib 30#32 ![30, 0, 0, 0] slices_S32x8x64x63_o30_0_0_0_S1x8x64x63 x) := rfl

/-- The last stretch: hypothesis 31 finished, the partial added to the accumulator `acc` read from the scratch. -/
theorem pay1_eq (x : Vec F S32x8x64x63 .f32) (v : FVec F S1x1 .f32) (acc : Vec F S1x1 .f32) :
    k0_pay1 v k0_pay49 (k0_pay50 x) acc
      = shapeCast S1x1 (addf acc (addf v (contrib 31#32 ![31, 0, 0, 0] slices_S32x8x64x63_o31_0_0_0_S1x8x64x63 x))) shapeCasts_S1x1_S1x1 := rfl

end Cert.KernelIdeal.Pieces

end
-- ==== Proof.KernelCases.lean ====
/-
  What each control case of the body leaves behind, as values.

  With x the point's block and acc the accumulator the scratch held on entry, the body leaves in the scratch
      newAcc x acc = acc + ((…((0 + c₀) + c₁) + …) + c₃₁),
  c_k the contribution of hypothesis k (`contrib`).  At the first grid point the scratch is first reset, so the
  accumulator it adds to is zero; at the last point the output block receives a copy of the new accumulator.
-/
import proofs.«175501_j2963527434409_1_alg».proof.Proof.KernelPieces

noncomputable section

open Idealize.ShloMosaic Idealize.ShloMosaic.TcCoe Idealize.SL.Sem

namespace Cert.KernelIdeal.Pieces

open Cert.KernelIdeal Cert.KernelIdeal.Gen

variable {F : FTy → Type} [FloatOps F]

/-! ## The partial of one block: the contributions of hypotheses 0, …, 31 added one after the other from zero -/

def run0 (x : Vec F S32x8x64x63 .f32) : FVec F S1x1 .f32 :=
  addf (broadcast S1x1 zf) (contrib 0#32 ![0, 0, 0, 0] slices_S32x8x64x63_o0_0_0_0_S1x8x64x63 x)
def run2 (x : Vec F S32x8x64x63 .f32) : FVec F S1x1 .f32 :=
  addf (addf (run0 x) (contrib 1#32 ![1, 0, 0, 0] slices_S32x8x64x63_o1_0_0_0_S1x8x64x63 x)) (contrib 2#32 ![2, 0, 0, 0] slices_S32x8x64x63_o2_0_0_0_S1x8x64x63 x)
def run4 (x : Vec F S32x8x64x63 .f32) : FVec F S1x1 .f32 :=
  addf (addf (run2 x) (contrib 3#32 ![3, 0, 0, 0] slices_S32x8x64x63_o3_0_0_0_S1x8x64x63 x)) (contrib 4#32 ![4, 0, 0, 0] slices_S32x8x64x63_o4_0_0_0_S1x8x64x63 x)
def run6 (x : Vec F S32x8x64x63 .f32) : FVec F S1x1 .f32 :=
  addf (addf (run4 x) (contrib 5#32 ![5, 0, 0, 0] slices_S32x8x64x63_o5_0_0_0_S1x8x64x63 x)) (contrib 6#32 ![6, 0, 0, 0] slices_S32x8x64x63_o6_0_0_0_S1x8x64x63 x)
def run8 (x : Vec F S32x8x64x63 .f32) : FVec F S1x1 .f32 :=
  addf (addf (run6 x) (contrib 7#32 ![7, 0, 0, 0] slices_S32x8x64x63_o7_0_0_0_S1x8x64x63 x)) (contrib 8#32 ![8, 0, 0, 0] slices_S32x8x64x63_o8_0_0_0_S1x8x64x63 x)
def run10 (x : Vec F S32x8x64x63 .f32) : FVec F S1x1 .f32 :=
  addf (addf (run8 x) (contrib 9#32 ![9, 0, 0, 0] slices_S32x8x64x63_o9_0_0_0_S1x8x64x63 x)) (contrib 10#32 ![10, 0, 0, 0] slices_S32x8x64x63_o10_0_0_0_S1x8x64x63 x)
def run12 (x : Vec F S32x8x64x63 .f32) : FVec F S1x1 .f32 :=
  addf (addf (run10 x) (contrib 11#32 ![11, 0, 0, 0] slices_S32x8x64x63_o11_0_0_0_S1x8x64x63 x)) (contrib 12#32 ![12, 0, 0, 0] slices_S32x8x64x63_o12_0_0_0_S1x8x64x63 x)
def run14 (x : Vec F S32x8x64x63 .f32) : FVec F S1x1 .f32 :=
  addf (addf (run12 x) (contrib 13#32 ![13, 0, 0, 0] slices_S32x8x64x63_o13_0_0_0_S1x8x64x63 x)) (contrib 14#32 ![14, 0, 0, 0] slices_S32x8x64x63_o14_0_0_0_S1x8x64x63 x)
def run16 (x : Vec F S32x8x64x63 .f32) : FVec F S1x1 .f32 :=
  addf (addf (run14 x) (contrib 15#32 ![15, 0, 0, 0] slices_S32x8x64x63_o15_0_0_0_S1x8x64x63 x)) (contrib 16#32 ![16, 0, 0, 0] slices_S32x8x64x63_o16_0_0_0_S1x8x64x63 x)
def run18 (x : Vec F S32x8x64x63 .f32) : FVec F S1x1 .f32 :=
  addf (addf (run16 x) (contrib 17#32 ![17, 0, 0, 0] slices_S32x8x64x63_o17_0_0_0_S1x8x64x63 x)) (contrib 18#32 ![18, 0, 0, 0] slices_S32x8x64x63_o18_0_0_0_S1x8x64x63 x)
def run20 (x : Vec F S32x8x64x63 .f32) : FVec F S1x1 .f32 :=
  addf (addf (run18 x) (contrib 19#32 ![19, 0, 0, 0] slices_S32x8x64x63_o19_0_0_0_S1x8x64x63 x)) (contrib 20#32 ![20, 0, 0, 0] slices_S32x8x64x63_o20_0_0_0_S1x8x64x63 x)
def run22 (x : Vec F S32x8x64x63 .f32) : FVec F S1x1 .f32 :=
  addf (addf (run20 x) (contrib 21#32 ![21, 0, 0, 0] slices_S32x8x64x63_o21_0_0_0_S1x8x64x63 x)) (contrib 22#32 ![22, 0, 0, 0] slices_S32x8x64x63_o22_0_0_0_S1x8x64x63 x)
def run24 (x : Vec F S32x8x64x63 .f32) : FVec F S1x1 .f32 :=
  addf (addf (run22 x) (contrib 23#32 ![23, 0, 0, 0] slices_S32x8x64x63_o23_0_0_0_S1x8x64x63 x)) (contrib 24#32 ![24, 0, 0, 0] slices_S32x8x64x63_o24_0_0_0_S1x8x64x63 x)
def run26 (x : Vec F S32x8x64x63 .f32) : FVec F S1x1 .f32 :=
  addf (addf (run24 x) (contrib 25#32 ![25, 0, 0, 0] slices_S32x8x64x63_o25_0_0_0_S1x8x64x63 x)) (contrib 26#32 ![26, 0, 0, 0] slices_S32x8x64x63_o26_0_0_0_S1x8x64x63 x)
def run28 (x : Vec F S32x8x64x63 .f32) : FVec F S1x1 .f32 :=
  addf (addf (run26 x) (contrib 27#32 ![27, 0, 0, 0] slices_S32x8x64x63_o27_0_0_0_S1x8x64x63 x)) (contrib 28#32 ![28, 0, 0, 0] slices_S32x8x64x63_o28_0_0_0_S1x8x64x63 x)
def run30 (x : Vec F S32x8x64x63 .f32) : FVec F S1x1 .f32 :=
  addf (addf (run28 x) (contrib 29#32 ![29, 0, 0, 0] slices_S32x8x64x63_o29_0_0_0_S1x8x64x63 x)) (contrib 30#32 ![30, 0, 0, 0] slices_S32x8x64x63_o30_0_0_0_S1x8x64x63 x)

/-- The block's partial. -/
def partial32 (x : Vec F S32x8x64x63 .f32) : FVec F S1x1 .f32 :=
  addf (run30 x) (contrib 31#32 ![31, 0, 0, 0] slices_S32x8x64x63_o31_0_0_0_S1x8x64x63 x)

/-- The accumulator after a point: the one before plus the block's partial. -/
def newAcc (x : Vec F S32x8x64x63 .f32) (acc : Vec F S1x1 .f32) : Vec F S1x1 .f32 :=
  shapeCast S1x1 (addf acc (partial32 x)) shapeCasts_S1x1_S1x1

/-- The accumulator after the reset. -/
def zeroAcc : Vec F S1x1 .f32 := shapeCast S1x1 (broadcast S1x1 zf) shapeCasts_S1x1_S1x1

theorem pay2_eq : (k0_pay2 : FVec F S1x1 .f32) = zeroAcc := rfl

/-- The stretches' payloads, composed as the body composes them, are the new accumulator. -/
theorem payloads_eq (x : Vec F S32x8x64x63 .f32) (acc : Vec F S1x1 .f32) :
    k0_pay1 (k0_pay48 x (k0_pay45 x (k0_pay42 x (k0_pay39 x (k0_pay36 x (k0_pay33 x (k0_pay30 x (k0_pay27 x (k0_pay24 x (k0_pay21 x
      (k0_pay18 x (k0_pay15 x (k0_pay12 x (k0_pay9 x (k0_pay6 x (k0_pay3 x) k0_pay4 (k0_pay5 x)) k0_pay7 (k0_pay8 x)) k0_pay10 (k0_pay11 x))
      k0_pay13 (k0_pay14 x)) k0_pay16 (k0_pay17 x)) k0_pay19 (k0_pay20 x)) k0_pay22 (k0_pay23 x)) k0_pay25 (k0_pay26 x)) k0_pay28 (k0_pay29 x))
      k0_pay31 (k0_pay32 x)) k0_pay34 (k0_pay35 x)) k0_pay37 (k0_pay38 x)) k0_pay40 (k0_pay41 x)) k0_pay43 (k0_pay44 x)) k0_pay46 (k0_pay47 x))
      k0_pay49 (k0_pay50 x) acc = newAcc x acc := by
  rw [pay1_eq, pay48_eq, pay45_eq, pay42_eq, pay39_eq, pay36_eq, pay33_eq, pay30_eq, pay27_eq, pay24_eq, pay21_eq, pay18_eq, pay15_eq,
    pay12_eq, pay9_eq, pay6_eq, pay3_eq]
  rfl

/-! ## The three control cases -/

/-- Points 1 and 2: the scratch ends at the new accumulator over what it held. -/
theorem scratch_B (c : Dev nD) (i : grid0.Coords) (arg1 : Memref sig .tc .vmem S32x8x64x63 .f32) (harg1 : arg1.IsWhole)
    (arg2 : Memref sig .tc .vmem S1x1 .f32) (harg2 : arg2.IsWhole) (arg3 : Memref sig .tc .vmem S1x1 .f32) (harg3 : arg3.IsWhole)
    (hc0 : ¬cond0_0 i) (hc1 : ¬cond0_1 i) (x0 : Vec F S32x8x64x63 .f32) (xs0 : Vec F S1x1 .f32) :
    sout0_B_0 c i arg1 harg1 arg2 harg2 arg3 harg3 hc0 hc1 x0 xs0 = newAcc x0 xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero hz]
  simp only [View.readAt_eq_ld, harg1.read_unread, harg3.read_unread, View.ld_unit_zero (S := S32x8x64x63) hz4,
    View.ld_unit_zero (S := S1x1) hz]
  exact payloads_eq x0 xs0

/-- Point 0: the scratch is reset, then ends at the new accumulator over zero. -/
theorem scratch_A (c : Dev nD) (i : grid0.Coords) (arg1 : Memref sig .tc .vmem S32x8x64x63 .f32) (harg1 : arg1.IsWhole)
    (arg2 : Memref sig .tc .vmem S1x1 .f32) (harg2 : arg2.IsWhole) (arg3 : Memref sig .tc .vmem S1x1 .f32) (harg3 : arg3.IsWhole)
    (hc0 : cond0_0 i) (hc1 : ¬cond0_1 i) (x0 : Vec F S32x8x64x63 .f32) :
    sout0_A_0 c i arg1 harg1 arg2 harg2 arg3 harg3 hc0 hc1 x0 = newAcc x0 zeroAcc := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S1x1) hz]
  simp only [View.readAt_eq_ld, harg1.read_unread, View.ld_unit_zero (S := S32x8x64x63) hz4,
    View.readCov_unit_zero (S := S1x1) _ hz, pay2_eq]
  exact payloads_eq x0 zeroAcc

/-- Point 3: the scratch ends at the new accumulator, -/
theorem scratch_C (c : Dev nD) (i : grid0.Coords) (arg1 : Memref sig .tc .vmem S32x8x64x63 .f32) (harg1 : arg1.IsWhole)
    (arg2 : Memref sig .tc .vmem S1x1 .f32) (harg2 : arg2.IsWhole) (arg3 : Memref sig .tc .vmem S1x1 .f32) (harg3 : arg3.IsWhole)
    (hc0 : ¬cond0_0 i) (hc1 : cond0_1 i) (x0 : Vec F S32x8x64x63 .f32) (xs0 : Vec F S1x1 .f32) :
    sout0_C_0 c i arg1 harg1 arg2 harg2 arg3 harg3 hc0 hc1 x0 xs0 = newAcc x0 xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero hz]
  simp only [View.readAt_eq_ld, harg1.read_unread, harg3.read_unread, View.ld_unit_zero (S := S32x8x64x63) hz4,
    View.ld_unit_zero (S := S1x1) hz]
  exact payloads_eq x0 xs0

/-- and the output block receives a copy of it. -/
theorem out_C (c : Dev nD) (i : grid0.Coords) (arg1 : Memref sig .tc .vmem S32x8x64x63 .f32) (harg1 : arg1.IsWhole)
    (arg2 : Memref sig .tc .vmem S1x1 .f32) (harg2 : arg2.IsWhole) (arg3 : Memref sig .tc .vmem S1x1 .f32) (harg3 : arg3.IsWhole)
    (hc0 : ¬cond0_0 i) (hc1 : cond0_1 i) (x0 : Vec F S32x8x64x63 .f32) (xs0 : Vec F S1x1 .f32) :
    out0_C_1 c i arg1 harg1 arg2 harg2 arg3 harg3 hc0 hc1 x0 xs0 = newAcc x0 xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero hz]
  simp only [View.readAt_eq_ld, harg1.read_unread, harg3.read_unread, View.ld_unit_zero (S := S32x8x64x63) hz4,
    View.ld_unit_zero (S := S1x1) hz, View.readCov_unit_zero (S := S1x1) _ hz]
  exact payloads_eq x0 xs0

end Cert.KernelIdeal.Pieces

end
-- ==== Proof.KernelRun.lean ====
/-
  The kernel's run, read as a value.

  The grid has four points, one per tile of eight batch rows.  By induction on the point, the scratch holds after
  point n the accumulator  acc_n = acc_{n−1} + partial(block n)  with acc_{−1} = 0 (`accAfter`), and at the last
  point the output block receives acc_3.  The output array [1,1] is that one block, written back once, after
  point 3; the host then reshapes it to a scalar and divides it by the count.
-/
import proofs.«175501_j2963527434409_1_alg».proof.Proof.KernelCases
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (m : (ℓ : Loc nD τ sig) → Buf (Elt F) ℓ) (ρ : Dev nD → PrngReg)

/-- The block of the pose array the body sees at point `t`: the eight batch rows of tile `t`. -/
abbrev xblk (c : Dev nD) (t : Fin cfg0.N) : Vec F S32x8x64x63 .f32 := iblk m c 0 t

/-- The accumulator after point `n`. -/
def accAfter (c : Dev nD) : (n : ℕ) → n < cfg0.N → Vec F S1x1 .f32
  | 0, h => newAcc (xblk m c ⟨0, h⟩) zeroAcc
  | n + 1, h => newAcc (xblk m c ⟨n + 1, h⟩) (accAfter c n (Nat.lt_of_succ_lt h))

/-- After every point the scratch holds that accumulator. -/
theorem scratch_eq (c : Dev nD) : ∀ (n : ℕ) (h : n < cfg0.N), (outsAt0 m c n h).2 = accAfter m c n h
  | 0, h => by
    rw [outsAt0_A m c ⟨0, h⟩ rfl (by dsimp only; omega)]
    dsimp only
    rw [scratch_A]
    rfl
  | n + 1, h => by
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      dsimp only
      rw [scratch_C]
      show newAcc _ (outsAt0 m c n _).2 = newAcc _ (accAfter m c n _)
      rw [scratch_eq c n]
    · rw [outsAt0_B m c ⟨n + 1, h⟩ h0 h1]
      dsimp only
      rw [scratch_B]
      show newAcc _ (outsAt0 m c n _).2 = newAcc _ (accAfter m c n _)
      rw [scratch_eq c n]

theorem three_lt : 3 < cfg0.N := by rw [show cfg0.N = 4 from N_0]; decide

/-- What the output array ends holding: the accumulator after the last point. -/
abbrev lastAcc (c : Dev nD) : Buf (Elt F) ((c : Thread nD τ).loc main_v0) := accAfter m c 3 three_lt

/-- At the last point the output block is a copy of the accumulator. -/
theorem out_last (c : Dev nD) : (outsAt0 m c 3 three_lt).1 = lastAcc m c := by
  rw [outsAt0_C m c ⟨3, three_lt⟩ (by dsimp only; omega) (by dsimp only)]
  dsimp only
  rw [out_C]
  show newAcc _ (outsAt0 m c 2 _).2 = newAcc _ (accAfter m c 2 _)
  rw [scratch_eq m c 2]

/-- The one write-back, after the last point, writes the accumulator: the [1,1] output array is its own single block. -/
theorem flushed_eq (c : Dev nD) (t : Fin cfg0.N) (hf : (cfg0.win 1).flush t = true) :
    (dats m 0 c).flushed 1 t = ((cfg0.win 1).blk t).view.read (Elt F) (lastAcc m c) := by
  have hN : cfg0.N = 4 := N_0
  have h3 : t.val = 3 := by have := (flush0_1 t).mp hf; have := t.isLt; omega
  obtain rfl : t = ⟨3, three_lt⟩ := Fin.ext h3
  show (cfg0.win 1).cut (grid0.coords ⟨3, three_lt⟩) ((dats m 0 c).after 1 ⟨3, three_lt⟩) = _
  rw [after0_1, out_last]
  have hoff : (fun a => win0_1.index ⟨3, three_lt⟩ a * main_v0.ty.shape.size a) = fun _ => 0 :=
    funext fun a => by fin_cases a <;> decide +kernel
  exact (Memref.read_access_unit_zero (Elt F) main_v0 hoff (fun a => by rw [congrFun hoff a]; simp) (lastAcc m c)).symm

/-- So the output array ends holding the accumulator after the last point. -/
theorem final_out (c : Dev nD) : (dats m 0 c).arrAt 1 cfg0.N = lastAcc m c :=
  (dats m 0 c).arrAt_eq_of_cover 1 (lastAcc m c) (flushed_eq m c) fun i =>
    ⟨⟨3, three_lt⟩, (flush0_1 _).mpr rfl, by
      show i ∈ ((View.whole main_v0).slice (win0_1.rect ⟨3, three_lt⟩)).set
      rw [View.set_slice_whole, Rect.mem_set_unit]
      intro a
      match a with
      | ⟨0, _⟩ =>
        have h0 : (i 0 : Nat) < 1 := (i 0).isLt
        show win0_1.index ⟨3, three_lt⟩ 0 * win0_1.size 0 ≤ (i 0 : Nat)
          ∧ (i 0 : Nat) < win0_1.index ⟨3, three_lt⟩ 0 * win0_1.size 0 + win0_1.xsize (grid0.coords ⟨3, three_lt⟩) 0
        rw [show win0_1.index ⟨3, three_lt⟩ 0 * win0_1.size 0 = 0 from by decide +kernel,
          show win0_1.xsize (grid0.coords ⟨3, three_lt⟩) 0 = 1 from by decide +kernel]
        omega
      | ⟨1, _⟩ =>
        have h1 : (i 1 : Nat) < 1 := (i 1).isLt
        show win0_1.index ⟨3, three_lt⟩ 1 * win0_1.size 1 ≤ (i 1 : Nat)
          ∧ (i 1 : Nat) < win0_1.index ⟨3, three_lt⟩ 1 * win0_1.size 1 + win0_1.xsize (grid0.coords ⟨3, three_lt⟩) 1
        rw [show win0_1.index ⟨3, three_lt⟩ 1 * win0_1.size 1 = 0 from by decide +kernel,
          show win0_1.xsize (grid0.coords ⟨3, three_lt⟩) 1 = 1 from by decide +kernel]
        omega⟩

/-- The program's result: the accumulator read as a scalar, over the count. -/
def resultOf (c : Dev nD) : Buf (Elt F) ((c : Thread nD τ).loc main_v2) :=
  Host.divf (shapeCast S_ (lastAcc m c) shapeCasts_S1x1_S_) (constant S_ .f32 0x49780000#32)

/-- The host operations after the region compute it from the output array. -/
theorem tail_eq (c : Dev nD) : Pipeline.afterTail₀ cfgs (dats m) 0 (V0 m) [hostOps1] c main_v2 = resultOf m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0)
      = lastAcc m c :=
    (Pipeline.withArrays_arr spec0 launch0.win.arr_inj c _ _ 1).trans (final_out m c)
  unfold resultOf
  rw [← e]
  rfl

/-- The run, read: the result at `resultOf`, the argument unchanged. -/
theorem run : θ_run defs (onTc (τ := τ) (main (F := F))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c)))⟩)
    (run_main m ρ)

end Cert.KernelIdeal.Pieces

end
-- ==== Proof.KernelIter.lean ====
/-
  One hypothesis' contribution at the ideal values.

  For a block x : [32, 8, 64, 63] of extended reals and a hypothesis k1, the kernel's chain of operations — slice
  row k1 out, lay it along all 32 hypotheses, subtract, take absolute values, sum over the features, negate,
  exponentiate, keep where the hypothesis coordinate exceeds k1, sum over frames, batch rows and hypotheses — is
      Σ_{k2} Σ_{b} Σ_{t}  (if k1 < k2 then exp(−Σ_f |x(k2,b,t,f) − x(k1,b,t,f)|) else 0),
  the absolute value of a being max a (−a).  Each reduction over one axis is the sum over that axis' coordinate,
  each layout operation reads one entry of its operand, and a signed compare of two words below 32 is the compare
  of the numbers.
-/
import proofs.«175501_j2963527434409_1_alg».proof.Proof.KernelPieces
import Idealize.ShloMosaic.Lib.ValueIdx
import Idealize.ShloMosaic.Lib.ValueLayout
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen

/-- What hypothesis `k1` contributes on a block. -/
def hypB (x : S32x8x64x63.Idx → EReal) (k1 : Fin 32) : EReal :=
  ∑ k2 : Fin 32, ∑ b : Fin 8, ∑ t : Fin 64,
    if k1 < k2 then
      Ideal.exp (-(∑ f : Fin 63, max (x (ix4 k2 b t f) - x (ix4 k1 b t f)) (-(x (ix4 k2 b t f) - x (ix4 k1 b t f)))))
    else 0

/-! ## The four reductions, each over one axis -/

theorem sum_features (v : FVec Ideal S32x8x64x63 .f32) (k2 : Fin 32) (b : Fin 8) (t : Fin 64) :
    multiReduction .add [3] S32x8x64 v 0x00000000#32 reduces_S32x8x64x63_S32x8x64 (.inl rfl) rfl (ix3 k2 b t)
      = ∑ f : Fin 63, v (ix4 k2 b t f) := by
  refine (Ideal.multiReduction_add_single v _ reduces_S32x8x64x63_S32x8x64 _ _ _).trans ?_
  exact Finset.sum_congr rfl fun f _ => congrArg v (funext fun a => Fin.ext (by
    match a with | ⟨0, _⟩ => rfl | ⟨1, _⟩ => rfl | ⟨2, _⟩ => rfl | ⟨3, _⟩ => rfl))

theorem sum_frames (v : FVec Ideal S32x8x64 .f32) (k2 : Fin 32) (b : Fin 8) :
    multiReduction .add [2] S32x8 v 0x00000000#32 reduces_S32x8x64_S32x8 (.inl rfl) rfl (ix2 k2 b)
      = ∑ t : Fin 64, v (ix3 k2 b t) := by
  refine (Ideal.multiReduction_add_single v _ reduces_S32x8x64_S32x8 _ _ _).trans ?_
  exact Finset.sum_congr rfl fun t _ => congrArg v (funext fun a => Fin.ext (by
    match a with | ⟨0, _⟩ => rfl | ⟨1, _⟩ => rfl | ⟨2, _⟩ => rfl))

theorem sum_rows (v : FVec Ideal S32x8 .f32) (k2 : Fin 32) :
    multiReduction .add [1] S32 v 0x00000000#32 reduces_S32x8_S32 (.inl rfl) rfl (ix1 k2)
      = ∑ b : Fin 8, v (ix2 k2 b) := by
  refine (Ideal.multiReduction_add_single v _ reduces_S32x8_S32 _ _ _).trans ?_
  exact Finset.sum_congr rfl fun b _ => congrArg v (funext fun a => Fin.ext (by
    match a with | ⟨0, _⟩ => rfl | ⟨1, _⟩ => rfl))

theorem sum_hyps (v : FVec Ideal S1x32 .f32) (u : Fin 1) :
    multiReduction .add [1] S1 v 0x00000000#32 reduces_S1x32_S1 (.inl rfl) rfl (ix1 u)
      = ∑ k2 : Fin 32, v (ix2 u k2) := by
  refine (Ideal.multiReduction_add_single v _ reduces_S1x32_S1 _ _ _).trans ?_
  exact Finset.sum_congr rfl fun k _ => congrArg v (funext fun a => Fin.ext (by
    match a with | ⟨0, _⟩ => rfl | ⟨1, _⟩ => rfl))

/-! ## The kept sum -/

/-- What is kept under a mask, summed over frames, rows and hypotheses. -/
theorem keptSum_apply (mk : IVec S32x8x64 1) (ev : FVec Ideal S32x8x64 .f32) (i : S1x1.Idx) :
    keptSum (F := Ideal) mk ev i
      = ∑ k2 : Fin 32, ∑ b : Fin 8, ∑ t : Fin 64, Scalar.select (mk (ix3 k2 b t)) (ev (ix3 k2 b t)) (0 : EReal) := by
  unfold keptSum extractAt
  rw [broadcast_apply]
  rw [shapeCast_apply _ shapeCasts_S1_S1x1 _ (ix1 (0 : Fin 1)) (by
    rw [Shape.rowMajor_val_one, Shape.rowMajor_val_two]; rfl)]
  rw [sum_hyps]
  refine Finset.sum_congr rfl fun k2 _ => ?_
  rw [shapeCast_a_1a_apply, sum_rows]
  refine Finset.sum_congr rfl fun b _ => ?_
  rw [sum_frames]
  refine Finset.sum_congr rfl fun t _ => ?_
  rw [select_apply, broadcast_apply]
  show Scalar.select _ _ (Ideal.ofBits .f32 0x00000000#32) = _
  rw [Ideal.ofBits_zero_f32]

/-! ## The mask and the exponentials -/

theorem maskOf_apply (c : BitVec 32) (k2 : Fin 32) (b : Fin 8) (t : Fin 64) :
    maskOf c (ix3 k2 b t) = IntOp.cmpi .sgt (BitVec.ofNat 32 k2.val) c := by
  unfold maskOf
  show IntOp.cmpi .sgt (iota .tc S32x8x64 32 [0] iota_S32x8x64_d0_w32 (ix3 k2 b t)) c = _
  rw [iota_single_apply]

/-- A signed "greater than" of two words below 32, used as a selector, selects by the order of the numbers. -/
theorem select_sgt (k1 k2 : ℕ) (h1 : k1 < 32) (h2 : k2 < 32) (e z : EReal) :
    Scalar.select (IntOp.cmpi .sgt (BitVec.ofNat 32 k2) (BitVec.ofNat 32 k1)) e z = if k1 < k2 then e else z := by
  have h := StableHlo.Predicate.sgt_iff_toNat (a := BitVec.ofNat 32 k2) (b := BitVec.ofNat 32 k1)
    (by rw [BitVec.toNat_ofNat]; omega) (by rw [BitVec.toNat_ofNat]; omega)
  rw [BitVec.toNat_ofNat, BitVec.toNat_ofNat, Nat.mod_eq_of_lt (by omega), Nat.mod_eq_of_lt (by omega)] at h
  by_cases hlt : k1 < k2
  · rw [if_pos hlt, h.mpr hlt]; exact select_one _ _
  · rw [if_neg hlt, eq_zero_of_ne_one (fun hh => hlt (h.mp hh))]; exact select_zero _ _

/-- Row `k1` of the block laid along every hypothesis: entry (k2, b, t, f) is x(k1, b, t, f). -/
theorem row_apply (k1 : Fin 32) (off : Fin 4 → Nat) (hoff : off = ![k1.val, 0, 0, 0]) (hs : S32x8x64x63.Slices off S1x8x64x63)
    (x : FVec Ideal S32x8x64x63 .f32) (k2 : Fin 32) (b : Fin 8) (t : Fin 64) (f : Fin 63) :
    broadcastTo S32x8x64x63
        (shapeCast S1x8x64x63 (shapeCast S8x64x63 (extractStridedSlice S1x8x64x63 off x hs) shapeCasts_S1x8x64x63_S8x64x63)
          shapeCasts_S8x64x63_S1x8x64x63) broadcasts_S1x8x64x63_S32x8x64x63 (ix4 k2 b t f)
      = x (ix4 k1 b t f) := by
  subst hoff
  rw [shapeCast_shapeCast]
  refine (broadcastTo_apply _ broadcasts_S1x8x64x63_S32x8x64x63 (ix4 k2 b t f) (ix4 (0 : Fin 1) b t f) (fun a => by
    match a with
    | ⟨0, _⟩ => show 0 = if (1 : Nat) = 1 then 0 else _; rw [if_pos rfl]
    | ⟨1, _⟩ => show b.val = if (8 : Nat) = 1 then 0 else b.val; rw [if_neg (by decide)]
    | ⟨2, _⟩ => show t.val = if (64 : Nat) = 1 then 0 else t.val; rw [if_neg (by decide)]
    | ⟨3, _⟩ => show f.val = if (63 : Nat) = 1 then 0 else f.val; rw [if_neg (by decide)])).trans ?_
  exact extractStridedSlice_apply _ x hs (ix4 (0 : Fin 1) b t f) (ix4 k1 b t f) (fun a => by
    match a with
    | ⟨0, _⟩ => show k1.val = k1.val + 0; omega
    | ⟨1, _⟩ => show b.val = 0 + b.val; omega
    | ⟨2, _⟩ => show t.val = 0 + t.val; omega
    | ⟨3, _⟩ => show f.val = 0 + f.val; omega)

theorem expOf_apply (k1 : Fin 32) (off : Fin 4 → Nat) (hoff : off = ![k1.val, 0, 0, 0]) (hs : S32x8x64x63.Slices off S1x8x64x63)
    (x : FVec Ideal S32x8x64x63 .f32) (k2 : Fin 32) (b : Fin 8) (t : Fin 64) :
    expOf (F := Ideal) off hs x (ix3 k2 b t)
      = Ideal.exp (-(∑ f : Fin 63, max (x (ix4 k2 b t f) - x (ix4 k1 b t f)) (-(x (ix4 k2 b t f) - x (ix4 k1 b t f))))) := by
  unfold expOf
  show Ideal.exp (Ideal.ofBits .f32 0x00000000#32 - multiReduction (F := Ideal) .add [3] S32x8x64 _ 0x00000000#32 reduces_S32x8x64x63_S32x8x64 (.inl rfl) rfl (ix3 k2 b t)) = _
  rw [sum_features, Ideal.ofBits_zero_f32, zero_sub]
  refine congrArg (fun s => Ideal.exp (-s)) (Finset.sum_congr rfl fun f _ => ?_)
  show max (x (ix4 k2 b t f) - _) (-(x (ix4 k2 b t f) - _)) = _
  rw [row_apply k1 off hoff hs x k2 b t f]

/-- One hypothesis' contribution, at every index of the [1,1] vector it is laid in. -/
theorem contrib_apply (k1 : Fin 32) (c : BitVec 32) (hc : c = BitVec.ofNat 32 k1.val) (off : Fin 4 → Nat)
    (hoff : off = ![k1.val, 0, 0, 0]) (hs : S32x8x64x63.Slices off S1x8x64x63) (x : FVec Ideal S32x8x64x63 .f32) (i : S1x1.Idx) :
    contrib (F := Ideal) c off hs x i = hypB x k1 := by
  unfold contrib hypB
  rw [keptSum_apply]
  refine Finset.sum_congr rfl fun k2 _ => Finset.sum_congr rfl fun b _ => Finset.sum_congr rfl fun t _ => ?_
  rw [maskOf_apply, expOf_apply k1 off hoff hs x k2 b t, hc, select_sgt k1.val k2.val k1.isLt k2.isLt]
  rfl

end Cert.KernelIdeal.Pieces

end
-- ==== Proof.DiversitySpec.lean ====
/-
  The quantity both programs compute, written once over the extended reals.

  `x` is the pose array, indexed (hypothesis i, batch row b, frame t, feature f) over [32, 32, 64, 63].
  For two hypotheses i, j at one (b, t), `dist` is their L1 distance  Σ_f |x(j,b,t,f) − x(i,b,t,f)|,  the absolute
  value of an extended real a being max a (−a).  `kept` is exp(−dist) on the strict upper triangle i < j and 0
  elsewhere; `total` is its sum over every (b, t, i, j); `loss` is the total divided by the count
  32 · 64 · 32 · 31 / 2 = 1015808, whose f32 word is 0x49780000 (both programs divide by that same word, so it is
  never evaluated).
-/
import Idealize.ShloMosaic.PureOps.Ideal
import Idealize.ShloMosaic.Lib.ValueIdx

noncomputable section

open scoped BigOperators

namespace Cert.Diversity

open Idealize.ShloMosaic Idealize.ShloMosaic.ValueIdx

/-- The pose array's shape: hypotheses × batch rows × frames × features. -/
abbrev SPose : Shape := ⟨4, ![32, 32, 64, 63]⟩

/-- The L1 distance of hypotheses `i` and `j` at batch row `b`, frame `t`. -/
def dist (x : SPose.Idx → EReal) (i j : Fin 32) (b : Fin 32) (t : Fin 64) : EReal :=
  ∑ f : Fin 63, max (x (ix4 j b t f) - x (ix4 i b t f)) (-(x (ix4 j b t f) - x (ix4 i b t f)))

/-- exp(−dist) kept on the strict upper triangle `i < j`, zero elsewhere. -/
def kept (x : SPose.Idx → EReal) (i j : Fin 32) (b : Fin 32) (t : Fin 64) : EReal :=
  if i < j then Ideal.exp (-(dist x i j b t)) else 0

/-- The sum of what is kept, over every batch row, frame and pair of hypotheses. -/
def total (x : SPose.Idx → EReal) : EReal :=
  ∑ b : Fin 32, ∑ t : Fin 64, ∑ i : Fin 32, ∑ j : Fin 32, kept x i j b t

/-- The diversity loss: the total over the number of kept pairs. -/
def loss (x : SPose.Idx → EReal) : EReal :=
  Ideal.div (total x) (Ideal.ofBits .f32 0x49780000#32)

/-- The absolute value of a difference of extended reals does not depend on the order of the two terms, at the
    infinities too (both sides are ⊤ as soon as one term is infinite). -/
theorem abs_sub_comm (a b : EReal) : max (a - b) (-(a - b)) = max (b - a) (-(b - a)) := by
  induction a using EReal.rec with
  | bot => induction b using EReal.rec <;> simp
  | top => induction b using EReal.rec <;> simp
  | coe r =>
    induction b using EReal.rec with
    | bot => simp
    | top => simp
    | coe s =>
      rw [← EReal.coe_sub, ← EReal.coe_sub, ← EReal.coe_neg, ← EReal.coe_neg, neg_sub, neg_sub, max_comm]

end Cert.Diversity

end
-- ==== Proof.LibSumRows.lean ====
/-
  Finite sums in a commutative monoid, re-indexed.

  `sum_fin_rows`: a sum over `n = a * b` consecutive positions is the sum over `a` rows of `b` entries, position
  `b * i + j` being entry `j` of row `i` (the statement takes the summand of the double sum and an equation per
  position, so no cast of an index appears in it). `sum_idx1`, `sum_idx3`: a sum over the indices of a rank-1 or
  rank-3 shape is the sum over its coordinates (the rank-2 form is the library's `ValueIdx.sum_idx2`).
-/
import Idealize.ShloMosaic.Lib.ValueIdx

open scoped BigOperators

namespace Cert.LibSumRows

variable {M : Type*} [AddCommMonoid M]

/-- A sum over `n = a * b` positions is the sum over `a` rows of `b`: position `b * i + j` is entry `j` of row `i`. -/
theorem sum_fin_rows {n a b : ℕ} (hn : n = a * b) (F : Fin n → M) (G : Fin a → Fin b → M)
    (hG : ∀ (i : Fin a) (j : Fin b) (h : b * i.val + j.val < n), F ⟨b * i.val + j.val, h⟩ = G i j) :
    ∑ k, F k = ∑ i, ∑ j, G i j := by
  subst hn
  rw [← finProdFinEquiv.sum_comp, Fintype.sum_prod_type]
  refine Finset.sum_congr rfl fun i _ => Finset.sum_congr rfl fun j _ => ?_
  have e : finProdFinEquiv (i, j) = ⟨b * i.val + j.val, (finProdFinEquiv (i, j)).isLt.trans_eq' (by
      simp [finProdFinEquiv, Nat.add_comm])⟩ := Fin.ext (by simp [finProdFinEquiv, Nat.add_comm])
  rw [e]
  exact hG i j _

open Idealize.ShloMosaic Idealize.ShloMosaic.ValueIdx in
/-- A sum over a rank-1 index set is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

open Idealize.ShloMosaic Idealize.ShloMosaic.ValueIdx in
/-- A sum over a rank-3 index set is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Cert.LibSumRows
-- ==== Proof.BlockSums.lean ====
/-
  The specification's total, regrouped the way a walk over the batch axis in 4 tiles of 8 rows meets it.

  The total sums what is kept over batch rows, frames and pairs of hypotheses. The 32 batch rows are 4 tiles of 8, row
  8·τ + b being row b of tile τ; inside one tile the two sums over hypotheses can be taken outside the sums over the
  tile's rows and over frames, since finite sums of extended reals commute. Nothing is assumed of the entries.
-/
import proofs.«175501_j2963527434409_1_alg».proof.Proof.DiversitySpec
import proofs.«175501_j2963527434409_1_alg».proof.Proof.LibSumRows

noncomputable section

open scoped BigOperators

namespace Cert.Diversity

open Idealize.ShloMosaic Idealize.ShloMosaic.ValueIdx

/-- In a fourfold finite sum the inner two sums can be taken outside the outer two. -/
theorem sum_inner_pair_outside {M : Type*} [AddCommMonoid M] {p q r s : ℕ} (f : Fin p → Fin q → Fin r → Fin s → M) :
    ∑ a, ∑ b, ∑ c, ∑ d, f a b c d = ∑ c, ∑ d, ∑ a, ∑ b, f a b c d :=
  calc ∑ a, ∑ b, ∑ c, ∑ d, f a b c d
      = ∑ a, ∑ c, ∑ b, ∑ d, f a b c d := Finset.sum_congr rfl fun _ _ => Finset.sum_comm
    _ = ∑ c, ∑ a, ∑ b, ∑ d, f a b c d := Finset.sum_comm
    _ = ∑ c, ∑ a, ∑ d, ∑ b, f a b c d :=
        Finset.sum_congr rfl fun _ _ => Finset.sum_congr rfl fun _ _ => Finset.sum_comm
    _ = ∑ c, ∑ d, ∑ a, ∑ b, f a b c d := Finset.sum_congr rfl fun _ _ => Finset.sum_comm

/-- The total by tiles of 8 batch rows: in tile τ, the pairs of hypotheses outermost, then the tile's rows, then frames. -/
theorem total_eq_blocks (x : SPose.Idx → EReal) :
    total x = ∑ τ : Fin 4, ∑ k1 : Fin 32, ∑ k2 : Fin 32, ∑ b : Fin 8, ∑ t : Fin 64,
      kept x k1 k2 (⟨8 * τ.val + b.val, by have := τ.isLt; have := b.isLt; omega⟩ : Fin 32) t := by
  unfold total
  refine (LibSumRows.sum_fin_rows (n := 32) (a := 4) (b := 8) (by decide)
    (fun b' : Fin 32 => ∑ t : Fin 64, ∑ i : Fin 32, ∑ j : Fin 32, kept x i j b' t)
    (fun τ b => ∑ t : Fin 64, ∑ i : Fin 32, ∑ j : Fin 32,
      kept x i j (⟨8 * τ.val + b.val, by have := τ.isLt; have := b.isLt; omega⟩ : Fin 32) t)
    (fun _ _ _ => rfl)).trans ?_
  exact Finset.sum_congr rfl fun τ _ => sum_inner_pair_outside
    (fun (b : Fin 8) (t : Fin 64) (i j : Fin 32) =>
      kept x i j (⟨8 * τ.val + b.val, by have := τ.isLt; have := b.isLt; omega⟩ : Fin 32) t)

end Cert.Diversity

end
-- ==== Proof.KernelValue.lean ====
/-
  The kernel's result at the ideal values is the specification's loss.

  At the ideal values the partial of a block is the plain sum over the 32 hypotheses k1 of their contributions; block τ of
  the pose array holds batch rows 8τ, …, 8τ + 7, so the contribution of k1 on block τ is the sum over k2, the tile's rows
  and the frames of what the specification keeps at (k1, k2, 8τ + b, t); the accumulator after the fourth point is the
  sum of the four partials, which regrouped is the specification's total; the host divides it by the count.
-/
import proofs.«175501_j2963527434409_1_alg».proof.Proof.KernelRun
import proofs.«175501_j2963527434409_1_alg».proof.Proof.KernelIter
import proofs.«175501_j2963527434409_1_alg».proof.Proof.DiversitySpec
import proofs.«175501_j2963527434409_1_alg».proof.Proof.BlockSums

noncomputable section

open scoped BigOperators
open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Cert.Diversity

/-! ## A block's partial is the sum of the 32 contributions -/

/-- The contribution of hypothesis number `k` (zero past the last hypothesis). -/
def hypN (x : S32x8x64x63.Idx → EReal) (k : ℕ) : EReal := if h : k < 32 then hypB x ⟨k, h⟩ else 0

theorem contrib_nat (k : ℕ) (hk : k < 32) (c : BitVec 32) (hc : c = BitVec.ofNat 32 k) (off : Fin 4 → Nat)
    (hoff : off = ![k, 0, 0, 0]) (hs : S32x8x64x63.Slices off S1x8x64x63) (x : FVec Ideal S32x8x64x63 .f32) (i : S1x1.Idx) :
    contrib (F := Ideal) c off hs x i = hypN x k := by
  rw [hypN, dif_pos hk]
  exact contrib_apply ⟨k, hk⟩ c hc off hoff hs x i

theorem zf_ideal : (zf : Ideal .f32) = 0 := Ideal.ofBits_zero_f32

theorem run0_apply (x : FVec Ideal S32x8x64x63 .f32) (i : S1x1.Idx) : run0 (F := Ideal) x i = hypN x 0 := by
  unfold run0
  rw [addf_apply, broadcast_apply, zf_ideal, zero_add]
  exact contrib_nat 0 (by omega) _ rfl _ rfl _ x i
theorem run2_apply (x : FVec Ideal S32x8x64x63 .f32) (i : S1x1.Idx) :
    run2 (F := Ideal) x i = run0 x i + hypN x 1 + hypN x 2 := by
  unfold run2
  rw [addf_apply, addf_apply, contrib_nat 1 (by omega) _ rfl _ rfl, contrib_nat 2 (by omega) _ rfl _ rfl]
theorem run4_apply (x : FVec Ideal S32x8x64x63 .f32) (i : S1x1.Idx) :
    run4 (F := Ideal) x i = run2 x i + hypN x 3 + hypN x 4 := by
  unfold run4
  rw [addf_apply, addf_apply, contrib_nat 3 (by omega) _ rfl _ rfl, contrib_nat 4 (by omega) _ rfl _ rfl]
theorem run6_apply (x : FVec Ideal S32x8x64x63 .f32) (i : S1x1.Idx) :
    run6 (F := Ideal) x i = run4 x i + hypN x 5 + hypN x 6 := by
  unfold run6
  rw [addf_apply, addf_apply, contrib_nat 5 (by omega) _ rfl _ rfl, contrib_nat 6 (by omega) _ rfl _ rfl]
theorem run8_apply (x : FVec Ideal S32x8x64x63 .f32) (i : S1x1.Idx) :
    run8 (F := Ideal) x i = run6 x i + hypN x 7 + hypN x 8 := by
  unfold run8
  rw [addf_apply, addf_apply, contrib_nat 7 (by omega) _ rfl _ rfl, contrib_nat 8 (by omega) _ rfl _ rfl]
theorem run10_apply (x : FVec Ideal S32x8x64x63 .f32) (i : S1x1.Idx) :
    run10 (F := Ideal) x i = run8 x i + hypN x 9 + hypN x 10 := by
  unfold run10
  rw [addf_apply, addf_apply, contrib_nat 9 (by omega) _ rfl _ rfl, contrib_nat 10 (by omega) _ rfl _ rfl]
theorem run12_apply (x : FVec Ideal S32x8x64x63 .f32) (i : S1x1.Idx) :
    run12 (F := Ideal) x i = run10 x i + hypN x 11 + hypN x 12 := by
  unfold run12
  rw [addf_apply, addf_apply, contrib_nat 11 (by omega) _ rfl _ rfl, contrib_nat 12 (by omega) _ rfl _ rfl]
theorem run14_apply (x : FVec Ideal S32x8x64x63 .f32) (i : S1x1.Idx) :
    run14 (F := Ideal) x i = run12 x i + hypN x 13 + hypN x 14 := by
  unfold run14
  rw [addf_apply, addf_apply, contrib_nat 13 (by omega) _ rfl _ rfl, contrib_nat 14 (by omega) _ rfl _ rfl]
theorem run16_apply (x : FVec Ideal S32x8x64x63 .f32) (i : S1x1.Idx) :
    run16 (F := Ideal) x i = run14 x i + hypN x 15 + hypN x 16 := by
  unfold run16
  rw [addf_apply, addf_apply, contrib_nat 15 (by omega) _ rfl _ rfl, contrib_nat 16 (by omega) _ rfl _ rfl]
theorem run18_apply (x : FVec Ideal S32x8x64x63 .f32) (i : S1x1.Idx) :
    run18 (F := Ideal) x i = run16 x i + hypN x 17 + hypN x 18 := by
  unfold run18
  rw [addf_apply, addf_apply, contrib_nat 17 (by omega) _ rfl _ rfl, contrib_nat 18 (by omega) _ rfl _ rfl]
theorem run20_apply (x : FVec Ideal S32x8x64x63 .f32) (i : S1x1.Idx) :
    run20 (F := Ideal) x i = run18 x i + hypN x 19 + hypN x 20 := by
  unfold run20
  rw [addf_apply, addf_apply, contrib_nat 19 (by omega) _ rfl _ rfl, contrib_nat 20 (by omega) _ rfl _ rfl]
theorem run22_apply (x : FVec Ideal S32x8x64x63 .f32) (i : S1x1.Idx) :
    run22 (F := Ideal) x i = run20 x i + hypN x 21 + hypN x 22 := by
  unfold run22
  rw [addf_apply, addf_apply, contrib_nat 21 (by omega) _ rfl _ rfl, contrib_nat 22 (by omega) _ rfl _ rfl]
theorem run24_apply (x : FVec Ideal S32x8x64x63 .f32) (i : S1x1.Idx) :
    run24 (F := Ideal) x i = run22 x i + hypN x 23 + hypN x 24 := by
  unfold run24
  rw [addf_apply, addf_apply, contrib_nat 23 (by omega) _ rfl _ rfl, contrib_nat 24 (by omega) _ rfl _ rfl]
theorem run26_apply (x : FVec Ideal S32x8x64x63 .f32) (i : S1x1.Idx) :
    run26 (F := Ideal) x i = run24 x i + hypN x 25 + hypN x 26 := by
  unfold run26
  rw [addf_apply, addf_apply, contrib_nat 25 (by omega) _ rfl _ rfl, contrib_nat 26 (by omega) _ rfl _ rfl]
theorem run28_apply (x : FVec Ideal S32x8x64x63 .f32) (i : S1x1.Idx) :
    run28 (F := Ideal) x i = run26 x i + hypN x 27 + hypN x 28 := by
  unfold run28
  rw [addf_apply, addf_apply, contrib_nat 27 (by omega) _ rfl _ rfl, contrib_nat 28 (by omega) _ rfl _ rfl]
theorem run30_apply (x : FVec Ideal S32x8x64x63 .f32) (i : S1x1.Idx) :
    run30 (F := Ideal) x i = run28 x i + hypN x 29 + hypN x 30 := by
  unfold run30
  rw [addf_apply, addf_apply, contrib_nat 29 (by omega) _ rfl _ rfl, contrib_nat 30 (by omega) _ rfl _ rfl]

/-- The 32 contributions added one after the other are their sum. -/
theorem partial32_apply (x : FVec Ideal S32x8x64x63 .f32) (i : S1x1.Idx) :
    partial32 (F := Ideal) x i = ∑ k1 : Fin 32, hypB x k1 := by
  have hs : ∑ k1 : Fin 32, hypB x k1 = ∑ k ∈ Finset.range 32, hypN x k := by
    rw [← Fin.sum_univ_eq_sum_range]
    exact Finset.sum_congr rfl fun k _ => by rw [hypN, dif_pos k.isLt]
  rw [hs]
  unfold partial32
  rw [addf_apply, contrib_nat 31 (by omega) _ rfl _ rfl, run30_apply, run28_apply, run26_apply, run24_apply, run22_apply,
    run20_apply, run18_apply, run16_apply, run14_apply, run12_apply, run10_apply, run8_apply, run6_apply, run4_apply,
    run2_apply, run0_apply]
  simp only [Finset.sum_range_succ, Finset.sum_range_zero, zero_add]

/-- The accumulator after a point, at the ideal values: the one before plus the block's 32 contributions. -/
theorem newAcc_apply (x : FVec Ideal S32x8x64x63 .f32) (acc : FVec Ideal S1x1 .f32) (i : S1x1.Idx) :
    newAcc (F := Ideal) x acc i = acc i + ∑ k1 : Fin 32, hypB x k1 := by
  unfold newAcc
  rw [shapeCast_self, addf_apply, partial32_apply]

theorem zeroAcc_apply (i : S1x1.Idx) : zeroAcc (F := Ideal) i = 0 := by
  unfold zeroAcc
  rw [shapeCast_self, broadcast_apply, zf_ideal]

/-! ## The blocks of the pose array -/

variable (m : (ℓ : Loc nD τ sig) → Buf (Elt Ideal) ℓ)

/-- The pose array on core `c`. -/
abbrev pose (c : Dev nD) : SPose.Idx → EReal := m ((c : Thread nD τ).loc main_arg0)

/-- Block `n` holds batch rows 8n, …, 8n + 7: its entry (k, b, t, f) is the array's entry (k, 8n + b, t, f). -/
theorem xblk_apply (c : Dev nD) (n : ℕ) (h : n < cfg0.N) (k : Fin 32) (b : Fin 8) (t : Fin 64) (f : Fin 63)
    (hb : 8 * n + b.val < 32) :
    xblk m c ⟨n, h⟩ (ix4 k b t f) = pose m c (ix4 k (⟨8 * n + b.val, hb⟩ : Fin 32) t f) := by
  have hi : ∀ p : Fin grid0.N, win0_0.index p 0 = 0 ∧ win0_0.index p 1 = p.val ∧ win0_0.index p 2 = 0 ∧ win0_0.index p 3 = 0 := by
    decide +kernel
  have i0 : win0_0.index ⟨n, h⟩ 0 = 0 := (hi ⟨n, h⟩).1
  have i1 : win0_0.index ⟨n, h⟩ 1 = n := (hi ⟨n, h⟩).2.1
  have i2 : win0_0.index ⟨n, h⟩ 2 = 0 := (hi ⟨n, h⟩).2.2.1
  have i3 : win0_0.index ⟨n, h⟩ 3 = 0 := (hi ⟨n, h⟩).2.2.2
  show iblk m c 0 ⟨n, h⟩ (ix4 k b t f) = _
  unfold iblk
  rw [View.read_apply]
  show V m c main_arg0 _ = m ((c : Thread nD τ).loc main_arg0) _
  rw [V_main_arg0]
  congr 1
  funext a
  apply Fin.ext
  match a with
  | ⟨0, _⟩ => show win0_0.index ⟨n, h⟩ 0 * 32 + 1 * k.val = k.val; rw [i0]; omega
  | ⟨1, _⟩ => show win0_0.index ⟨n, h⟩ 1 * 8 + 1 * b.val = 8 * n + b.val; rw [i1]; omega
  | ⟨2, _⟩ => show win0_0.index ⟨n, h⟩ 2 * 64 + 1 * t.val = t.val; rw [i2]; omega
  | ⟨3, _⟩ => show win0_0.index ⟨n, h⟩ 3 * 63 + 1 * f.val = f.val; rw [i3]; omega

/-- So a hypothesis' contribution on block `n` is what the specification keeps on the tile's rows. -/
theorem hypB_block (c : Dev nD) (n : ℕ) (h : n < cfg0.N) (k1 : Fin 32) :
    hypB (xblk m c ⟨n, h⟩) k1 = ∑ k2 : Fin 32, ∑ b : Fin 8, ∑ t : Fin 64,
      kept (pose m c) k1 k2 (⟨8 * n + b.val, by have := b.isLt; have hN : cfg0.N = 4 := N_0; omega⟩ : Fin 32) t := by
  have hN : cfg0.N = 4 := N_0
  unfold hypB kept Cert.Diversity.dist
  refine Finset.sum_congr rfl fun k2 _ => Finset.sum_congr rfl fun b _ => Finset.sum_congr rfl fun t _ => ?_
  by_cases hlt : k1 < k2
  · rw [if_pos hlt, if_pos hlt]
    refine congrArg (fun s => Ideal.exp (-s)) (Finset.sum_congr rfl fun f _ => ?_)
    rw [xblk_apply m c n h k2 b t f (by have := b.isLt; omega), xblk_apply m c n h k1 b t f (by have := b.isLt; omega)]
  · rw [if_neg hlt, if_neg hlt]

/-! ## The result -/

/-- The accumulator after the last point is the specification's total, tile by tile. -/
theorem lastAcc_apply (c : Dev nD) (i : S1x1.Idx) : lastAcc m c i = total (pose m c) := by
  rw [total_eq_blocks, Fin.sum_univ_four]
  show accAfter m c 3 _ i = _
  simp only [accAfter]
  rw [newAcc_apply, newAcc_apply, newAcc_apply, newAcc_apply, zeroAcc_apply, zero_add]
  simp only [hypB_block m c]
  rfl

/-- Every index of a [1,1] array is (0, 0). -/
theorem idx_one_one (j : S1x1.Idx) : j = ix2 (0 : Fin 1) (0 : Fin 1) := by
  funext a
  apply Fin.ext
  match a with
  | ⟨0, _⟩ => have h0 : (j 0).val < 1 := (j 0).isLt; show (j 0).val = 0; omega
  | ⟨1, _⟩ => have h1 : (j 1).val < 1 := (j 1).isLt; show (j 1).val = 0; omega

/-- The kernel program's result is the specification's loss of the pose array. -/
theorem result_eq (c : Dev nD) : resultOf (F := Ideal) m c = fun _ => loss (pose m c) := by
  funext q
  unfold resultOf loss
  show Ideal.div (shapeCast S_ (lastAcc m c) shapeCasts_S1x1_S_ q) (Ideal.ofBits .f32 0x49780000#32) = _
  have e : shapeCast S_ (lastAcc m c) shapeCasts_S1x1_S_ q = lastAcc m c (ix2 (0 : Fin 1) (0 : Fin 1)) := by
    unfold shapeCast
    exact congrArg (lastAcc m c) (idx_one_one _)
  rw [e, lastAcc_apply]

end Cert.KernelIdeal.Pieces

end
-- ==== Proof.RefValue.lean ====
/-
  The reference program's value, read down to the common specification.

  The reference transposes the pose array x[k, b, t, f] to [b, t, k, f] and flattens the first two axes, so that its
  row n = 64·b + t holds the 32 hypotheses of batch row b at frame t. For each row and each pair (i, j) of hypotheses
  it sums |x(i,b,t,f) − x(j,b,t,f)| over the features f, keeps exp of minus that sum where the mask "not (i ≥ j)" holds
  and 0 elsewhere, sums everything and divides by the count. The absolute value of a difference does not depend on the
  order of its terms, so the feature sum is the specification's distance; the mask is the strict upper triangle i < j; a
  sum over the rows n is the double sum over (b, t). Hence the reference's result is the specification's loss.
-/
import proofs.«175501_j2963527434409_1_alg».proof.Proof.DiversitySpec
import proofs.«175501_j2963527434409_1_alg».proof.Proof.LibSumRows
import proofs.«175501_j2963527434409_1_alg».proof.Proof.Gen.ReferenceIdeal.Read
import Idealize.ShloMosaic.PureOps.Ideal.Laws
import Idealize.ShloMosaic.Lib.ValueIdx
import Idealize.ShloMosaic.Lib.StableHlo.Predicate

noncomputable section

open scoped BigOperators

namespace Cert.Diversity.Ref

open Cert.ReferenceIdeal Cert.ReferenceIdeal.Read Idealize.ShloMosaic Idealize.ShloMosaic.ValueIdx
open Idealize.ShloMosaic.StableHlo

/-- The flattened array at row 64·b + t, hypothesis k, feature f is the pose array at (k, b, t, f). -/
theorem feat_apply (x : (⟨S32x32x64x63, .f32⟩ : BufTy).Contents (Elt Ideal)) (b : Fin 32) (t : Fin 64) (k : Fin 32)
    (f : Fin 63) (h : 64 * b.val + t.val < 2048) :
    val_main_v1 (F := Ideal) x (ix3 (⟨64 * b.val + t.val, h⟩ : Fin 2048) k f) = x (ix4 k b t f) := by
  rw [val_main_v1_apply, val_main_v0_apply]
  congr 1
  funext a
  have hb := b.isLt
  have ht := t.isLt
  have hk := k.isLt
  have hf := f.isLt
  match a with
  | ⟨0, _⟩ =>
    exact Fin.ext (by show (((64 * b.val + t.val) * 32 + k.val) * 63 + f.val) / 63 % 32 = k.val; omega)
  | ⟨1, _⟩ =>
    exact Fin.ext (by show (((64 * b.val + t.val) * 32 + k.val) * 63 + f.val) / 129024 = b.val; omega)
  | ⟨2, _⟩ =>
    exact Fin.ext (by show (((64 * b.val + t.val) * 32 + k.val) * 63 + f.val) / 2016 % 64 = t.val; omega)
  | ⟨3, _⟩ =>
    exact Fin.ext (by show (((64 * b.val + t.val) * 32 + k.val) * 63 + f.val) % 63 = f.val; omega)

/-- The reference's feature sum at row 64·b + t and pair (i, j) is the specification's distance of i and j there:
    the absolute value of a difference is symmetric in its two terms. -/
theorem pdist_apply (x : (⟨S32x32x64x63, .f32⟩ : BufTy).Contents (Elt Ideal)) (b : Fin 32) (t : Fin 64) (i j : Fin 32)
    (h : 64 * b.val + t.val < 2048) :
    val_main_v8 (F := Ideal) x (ix3 (⟨64 * b.val + t.val, h⟩ : Fin 2048) i j) = dist x i j b t := by
  rw [val_main_v8_apply, val_main_cst_apply, Ideal.ofBits_def, Ideal.ofBits_zero_f32, zero_add]
  unfold dist
  refine Finset.sum_congr rfl fun f _ => ?_
  have e1 : idx_main_v2 (idx_main_v4 (idx_main_v8 (ix3 (⟨64 * b.val + t.val, h⟩ : Fin 2048) i j) f))
      = ix3 (⟨64 * b.val + t.val, h⟩ : Fin 2048) i f := by
    funext a
    match a with
    | ⟨0, _⟩ => rfl
    | ⟨1, _⟩ => rfl
    | ⟨2, _⟩ => rfl
  have e2 : idx_main_v3 (idx_main_v5 (idx_main_v8 (ix3 (⟨64 * b.val + t.val, h⟩ : Fin 2048) i j) f))
      = ix3 (⟨64 * b.val + t.val, h⟩ : Fin 2048) j f := by
    funext a
    match a with
    | ⟨0, _⟩ => rfl
    | ⟨1, _⟩ => rfl
    | ⟨2, _⟩ => rfl
  rw [val_main_v7_apply, val_main_v6_apply, val_main_v4_apply, val_main_v5_apply, val_main_v2_apply, val_main_v3_apply,
    e1, e2, feat_apply, feat_apply, Ideal.hostAbsf_def, Ideal.absf_def, Ideal.subf_def]
  exact abs_sub_comm _ _

/-- The signed comparison "i + 0 ≥ j" of two coordinates below 32, as words, is the bit of j ≤ i. -/
theorem sge_word (i j : Fin 32) :
    IntOp.cmpi .sge (IntOp.addi (BitVec.ofNat 32 i.val) 0#32) (BitVec.ofNat 32 j.val) = if i < j then 0#1 else 1#1 := by
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have h0 : IntOp.addi (BitVec.ofNat 32 i.val) 0#32 = BitVec.ofNat 32 i.val := by
    unfold IntOp.addi; exact BitVec.add_zero _
  rw [h0]
  have key := Predicate.sge_iff_toNat (a := BitVec.ofNat 32 i.val) (b := BitVec.ofNat 32 j.val)
    (by rw [hi]; have := i.isLt; omega) (by rw [hj]; have := j.isLt; omega)
  rw [hi, hj] at key
  by_cases hij : i < j
  · rw [if_pos hij]
    exact eq_zero_of_ne_one fun h1 => by
      have h2 := key.mp h1
      have h3 := Fin.lt_def.mp hij
      omega
  · rw [if_neg hij]
    exact key.mpr (Fin.le_def.mp (Fin.not_lt.mp hij))

/-- The reference's mask at any row and pair (i, j) is the bit of i < j: the strict upper triangle. -/
theorem mask_apply (n : Fin 2048) (i j : Fin 32) :
    val_main_call1_v1 (F := Ideal) (ix3 n i j) = if i < j then 1#1 else 0#1 := by
  rw [val_main_call1_v1_apply, val_main_v11_apply, val_main_v10_apply, val_main_call0_v4_apply, val_main_call0_v2_apply,
    val_main_call0_v0_apply, val_main_call0_v1_apply, val_main_call0_c_apply, val_main_call0_v3_apply,
    val_main_call0_v5_apply, val_main_call0_c_0_apply, val_main_v9_apply, val_main_c_apply]
  show Scalar.select (IntOp.cmpi .sge (IntOp.addi (BitVec.ofNat 32 i.val) 0#32) (BitVec.ofNat 32 j.val)) 0#1 1#1 = _
  rw [sge_word]
  by_cases hij : i < j
  · rw [if_pos hij, if_pos hij, select_zero]
  · rw [if_neg hij, if_neg hij, select_one]

/-- What the reference keeps at row 64·b + t and pair (i, j) is what the specification keeps at (i, j, b, t). -/
theorem kept_apply (x : (⟨S32x32x64x63, .f32⟩ : BufTy).Contents (Elt Ideal)) (b : Fin 32) (t : Fin 64) (i j : Fin 32)
    (h : 64 * b.val + t.val < 2048) :
    val_main_v14 (F := Ideal) x (ix3 (⟨64 * b.val + t.val, h⟩ : Fin 2048) i j) = kept x i j b t := by
  rw [val_main_v14_apply, mask_apply, val_main_v13_apply, val_main_v12_apply, pdist_apply, val_main_call1_v2_apply,
    val_main_call1_v0_apply, val_main_cst_0_apply, Ideal.hostUnary_exp_def, Ideal.hostNegf_def, Ideal.negf_def,
    Ideal.ofBits_def, Ideal.ofBits_zero_f32]
  unfold kept
  by_cases hij : i < j
  · rw [if_pos hij, if_pos hij, select_one]
  · rw [if_neg hij, if_neg hij, select_zero]

/-- The reference's sum over every row and pair is the specification's total: the rows n = 64·b + t are the pairs (b, t). -/
theorem total_apply (x : (⟨S32x32x64x63, .f32⟩ : BufTy).Contents (Elt Ideal)) (q : S_.Idx) :
    val_main_v15 (F := Ideal) x q = total x := by
  rw [val_main_v15_apply, val_main_cst_1_apply, Ideal.ofBits_def, Ideal.ofBits_zero_f32, zero_add,
    LibSumRows.sum_idx3]
  unfold total
  exact LibSumRows.sum_fin_rows (n := 2048) (a := 32) (b := 64) (by decide) _ (fun b t => ∑ i : Fin 32, ∑ j : Fin 32, kept x i j b t)
    (fun b t h => Finset.sum_congr rfl fun i _ => Finset.sum_congr rfl fun j _ => kept_apply x b t i j h)

/-- The reference's result, at its one index, is the specification's loss. -/
theorem ref_loss (x : (⟨Cert.ReferenceIdeal.S32x32x64x63, .f32⟩ : BufTy).Contents (Elt Ideal)) :
    Cert.ReferenceIdeal.Read.val_main_v16 (F := Ideal) x = fun _ => Cert.Diversity.loss x := by
  funext q
  rw [val_main_v16_apply, total_apply, val_main_cst_2_apply, Ideal.hostDivf_def, Ideal.ofBits_def]
  rfl

end Cert.Diversity.Ref

end
-- ==== Proof.lean ====
/-
  Diversity loss: a kernel that walks the batch axis in four tiles of eight rows against the plain jnp reference.

  Both programs compute, from the pose array x[hypothesis, batch row, frame, feature] over [32, 32, 64, 63],
      loss = ( Σ_{b,t} Σ_{i<j} exp(−Σ_f |x(i,b,t,f) − x(j,b,t,f)|) ) / 1015808
  (Proof/DiversitySpec.lean).  The kernel keeps a [1,1] accumulator across its four grid points, adds at each point the
  32 per-hypothesis contributions of the point's tile, writes the accumulator out after the last point, and the host
  divides by the count (Proof/KernelPieces, KernelCases, KernelRun: the run read as a value at any float instance;
  Proof/KernelIter, KernelValue: that value over the extended reals).  The reference lays the hypotheses of one
  (b, t) side by side, forms all pairwise distances, masks the strict upper triangle and sums everything at once
  (Proof/RefValue.lean).  Over the extended reals finite sums commute and re-associate and |a − b| = |b − a| holds at
  the infinities too, so the two agree on every input; the finiteness precondition is not used.
  The ideal pass rewrote nothing, so the preservation claim is trivial; the three frames are the generated frame runs
  (the reference's is its generated run with the result dropped).
-/
import proofs.«175501_j2963527434409_1_alg».proof.Defs
import proofs.«175501_j2963527434409_1_alg».proof.Proof.Gen.Kernel
import proofs.«175501_j2963527434409_1_alg».proof.Proof.Gen.Kernel.Skeleton
import proofs.«175501_j2963527434409_1_alg».proof.Proof.Gen.Kernel.Launch
import proofs.«175501_j2963527434409_1_alg».proof.Proof.Gen.Kernel.Points
import proofs.«175501_j2963527434409_1_alg».proof.Proof.Gen.Kernel.Frame
import proofs.«175501_j2963527434409_1_alg».proof.Proof.Gen.KernelIdeal
import proofs.«175501_j2963527434409_1_alg».proof.Proof.Gen.KernelIdeal.Skeleton
import proofs.«175501_j2963527434409_1_alg».proof.Proof.Gen.KernelIdeal.Launch
import proofs.«175501_j2963527434409_1_alg».proof.Proof.Gen.KernelIdeal.Points
import proofs.«175501_j2963527434409_1_alg».proof.Proof.Gen.KernelIdeal.Frame
import proofs.«175501_j2963527434409_1_alg».proof.Proof.Gen.ReferenceIdeal
import proofs.«175501_j2963527434409_1_alg».proof.Proof.Gen.Pre_finite_inputs
import proofs.«175501_j2963527434409_1_alg».proof.Proof.Gen.ReferenceIdeal.Run
import proofs.«175501_j2963527434409_1_alg».proof.Proof.Gen.ReferenceIdeal.Read
import proofs.«175501_j2963527434409_1_alg».proof.Proof.KernelValue
import proofs.«175501_j2963527434409_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification's loss of the (agreeing) pose arrays. -/
theorem algebraic : Cert.algebraic_KernelIdeal_ReferenceIdeal := by
  intro m ρ m' ρ' _ hagree
  refine ⟨fun c => fun _ => Cert.Diversity.loss (Cert.KernelIdeal.Pieces.pose m c), ?_, ?_⟩
  · exact (θ_run Cert.KernelIdeal.defs _ _).mono
      (fun _ h c => ⟨(h c).1.trans (Cert.KernelIdeal.Pieces.result_eq m c), (h c).2⟩)
      (Cert.KernelIdeal.Pieces.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.Diversity.Ref.ref_loss, hagree c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
